-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S131072x2048 : Shape := ⟨2, ![131072, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S131072x2048 : S_.BroadcastsInDim S131072x2048 (![] : Fin 0 → Fin S131072x2048.rank)
  reducesTo_S131072x2048_S_d0_1 : S131072x2048.ReducesTo [0, 1] S_

variable [Facts]

def fn {F : FTy → Type} [FloatOps F] (main_arg0 : FVec F S2048 .f32) (main_arg1 : FVec F S131072x2048 .f32) : IVec S_ 1 :=
  let main_v0 : FVec F S2048 .f32 := Host.absf main_arg0
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S131072x2048 .f32 := Host.absf main_arg1
  let main_cst_0 : FVec F S_ .f32 := constant S_ .f32 0x7F800000#32
  let main_v5 : FVec F S131072x2048 .f32 := broadcastInDim S131072x2048 ![] bcast_S_S131072x2048 main_cst_0
  let main_v6 : IVec S131072x2048 1 := cmpf .olt main_v4 main_v5
  let main_c_1 : IVec S_ 1 := constantI S_ 1 1#1
  let main_v7 : IVec S_ 1 := (fun x v => Host.reduce IntOp.andi x v reducesTo_S131072x2048_S_d0_1 h_S_) main_v6 main_c_1
  let main_v8 : IVec S_ 1 := andi main_v3 main_v7
  main_v8
-- ==== Kernel.lean ====
abbrev S2048 : Shape := ⟨1, ![2048]⟩
abbrev S131072x2048 : Shape := ⟨2, ![131072, 2048]⟩
abbrev S1024 : Shape := ⟨1, ![1024]⟩
abbrev S2048x1024 : Shape := ⟨2, ![2048, 1024]⟩
abbrev S1x1024 : Shape := ⟨2, ![1, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048, .f32⟩
  | .hbm, ⟨1, _⟩ => ⟨S131072x2048, .f32⟩
  | .hbm, ⟨2, _⟩ => ⟨S2048, .f32⟩
  | .local _ .vmem, ⟨0, _⟩ => ⟨S1024, .f32⟩
  | .local _ .vmem, ⟨1, _⟩ => ⟨S1024, .f32⟩
  | .local _ .vmem, ⟨2, _⟩ => ⟨S2048x1024, .f32⟩
  | .local _ .vmem, ⟨3, _⟩ => ⟨S2048x1024, .f32⟩
  | .local _ .vmem, ⟨4, _⟩ => ⟨S1024, .f32⟩
  | .local _ .vmem, ⟨5, _⟩ => ⟨S1024, .f32⟩
  | .local _ .vmem, ⟨6, _⟩ => ⟨S1x1024, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v11 : BitVec 1 := Scalar.cmpi .eq arg1 c63_i32
  let v12 : BitVec 32 := Scalar.extui v11
  let c0_i32_6 : BitVec 32 := 0#32
  let v13 : BitVec 1 := Scalar.cmpi .ne v12 c0_i32_6
  v13

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S2048x1024_0_0 : ∀ a, (![0, 0] : Fin 2 → Nat) a + S2048x1024.size a ≤ S2048x1024.size a
  h_S2048x1024 : 0 < S2048x1024.numel
  reduces_S2048x1024_S1024 : S2048x1024.Reduces [0] S1024
  shapeCasts_S1024_S1x1024 : S1024.ShapeCasts S1x1024
  shapeCasts_S1x1024_S1024 : S1x1024.ShapeCasts S1024
  inb_S1024_S1024_0 : ∀ a, (![0] : Fin 1 → Nat) a + S1024.size a ≤ S1024.size a
  h_S1024 : 0 < S1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S2048.size a
  hwx0_0 : ∀ i : grid0.Coords, EltTy.bits .f32 = 32 ∨ (Rect.block (s := S2048) S1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S131072x2048.size a
  hwx0_1 : ∀ i : grid0.Coords, EltTy.bits .f32 = 32 ∨ (Rect.block (s := S131072x2048) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S2048.size a
  hwx0_2 : ∀ i : grid0.Coords, EltTy.bits .f32 = 32 ∨ (Rect.block (s := S2048) S1024.size (cc0_transform_2 i) (hinb0_2 i)).WholeWords (EltTy.packing .f32)

variable [Facts₀]

abbrev win0_0 : Pipeline.Window sig grid0 :=
  Pipeline.Window.ofSpec (Memref.whole main_arg0) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048 : Shape := ⟨1, ![2048]⟩
abbrev S131072x2048 : Shape := ⟨2, ![131072, 2048]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S2048, .f32⟩
  | .hbm, ⟨1, _⟩ => ⟨S131072x2048, .f32⟩
  | .hbm, ⟨2, _⟩ => ⟨S_, .f32⟩
  | .hbm, ⟨3, _⟩ => ⟨S2048, .f32⟩
  | .hbm, ⟨4, _⟩ => ⟨S2048, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  reducesTo_S131072x2048_S2048_d0 : S131072x2048.ReducesTo [0] S2048
  h_S_ : 0 < S_.numel

variable [Facts₀]

class Facts : Prop extends Facts₀ where

variable [Facts]
-- ==== Proof.ColumnTotal.lean ====
/-
  The result both programs compute, as one function of the two argument arrays, and the one law of sums that
  joins their two arrangements.

  Entry `i` of the result is `init i` plus the total of column `i` of `xs`, a matrix of 131072 rows and 2048
  columns. One program adds the 131072 entries of the column in a single sum. The other cuts the rows into 64
  consecutive blocks of 2048 rows, totals each block's part of the column, and adds the 64 block totals one after the
  other. Addition of extended reals is commutative and associative (with `⊥ + ⊤ = ⊥` it is still a commutative
  monoid), so the two arrangements agree at every input, finite or not: row `n` is row `r` of block `s` exactly
  when `n = 2048 * s + r`, and that correspondence between `Fin 64 × Fin 2048` and `Fin (64 * 2048)` is a
  bijection.
-/
import Idealize.ShloMosaic.PureOps.Ideal
import Idealize.ShloMosaic.Lib.ValueIdx
import Mathlib.Logic.Equiv.Fin.Basic
import Mathlib.Algebra.BigOperators.Fin

noncomputable section

open scoped BigOperators
open Idealize.ShloMosaic Idealize.ShloMosaic.ValueIdx

namespace Cert.ColumnTotal

/-- A sum over `Fin (a * b)` taken block by block: `a` consecutive blocks of `b` terms each, term `r` of block `s`
    being term `s * b + r` of the whole. In any commutative monoid. -/
theorem sum_fin_mul {M : Type*} [AddCommMonoid M] (a b : ℕ) (f : ℕ → M) :
    ∑ k : Fin (a * b), f k.val = ∑ s ∈ Finset.range a, ∑ r : Fin b, f (s * b + r.val) := by
  rw [Finset.sum_range, ← (finProdFinEquiv (m := a) (n := b)).sum_comp, Fintype.sum_prod_type]
  refine Finset.sum_congr rfl fun s _ => Finset.sum_congr rfl fun r _ => ?_
  show f (r.val + b * s.val) = f (s.val * b + r.val)
  rw [Nat.add_comm, Nat.mul_comm]

/-- Entry `(n, i)` of the matrix for a row number `n` given as a natural; `0` past the last row, a value no sum
    below ever meets (every row number it forms is below 131072). -/
def rowAt (xs : FVec Ideal ⟨2, ![131072, 2048]⟩ .f32) (n : ℕ) (i : Fin 2048) : EReal :=
  if h : n < 131072 then xs (ix2 ⟨n, h⟩ i) else 0

theorem rowAt_of_lt (xs : FVec Ideal ⟨2, ![131072, 2048]⟩ .f32) (n : ℕ) (h : n < 131072) (i : Fin 2048) :
    rowAt xs n i = xs (ix2 ⟨n, h⟩ i) := dif_pos h

/-- The part of column `i`'s total that row block `s` contributes: its 2048 rows, `2048 * s … 2048 * s + 2047`. -/
def blockTotal (xs : FVec Ideal ⟨2, ![131072, 2048]⟩ .f32) (s : ℕ) (i : Fin 2048) : EReal :=
  ∑ r : Fin 2048, rowAt xs (s * 2048 + r.val) i

/-- THE RESULT: `init i` added to the total of column `i`, the column taken block by block. -/
def total (init : FVec Ideal ⟨1, ![2048]⟩ .f32) (xs : FVec Ideal ⟨2, ![131072, 2048]⟩ .f32) :
    FVec Ideal ⟨1, ![2048]⟩ .f32 :=
  fun i => (∑ s ∈ Finset.range 64, blockTotal xs s (i 0)) + init i

/-- A column's total over all its rows is the sum of its 64 block totals. -/
theorem column_total (xs : FVec Ideal ⟨2, ![131072, 2048]⟩ .f32) (i : Fin 2048) :
    ∑ k : Fin 131072, xs (ix2 k i) = ∑ s ∈ Finset.range 64, blockTotal xs s i := by
  have h : ∑ k : Fin 131072, xs (ix2 k i) = ∑ k : Fin (64 * 2048), rowAt xs k.val i :=
    Finset.sum_congr rfl fun k _ => (rowAt_of_lt xs k.val k.isLt i).symm
  rw [h, sum_fin_mul 64 2048 fun n => rowAt xs n i]
  rfl

end Cert.ColumnTotal

end
-- ==== Proof.Payloads.lean ====
/-
  The three values the kernel body stores, read at one index, over the extended reals.

  The body keeps a row of 1024 running totals. At the first step of a column block it stores zero into the row; at
  every step it adds to each running total the sum of the 2048 entries of its column in the current block of the
  matrix; at the last step it adds the block of `init` to the row and stores the result. Read at an index, a change
  of shape between a vector of 1024 and a row of 1 by 1024 moves nothing, and a sum along the rows is the finite sum
  of the column's entries.
-/
import proofs.«164925_j66065186947681_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.Payloads

open Cert.KernelIdeal Cert.KernelIdeal.Gen

/-- The row of a 2048 by 1024 block that a sum along the rows reads for column `j` at its `k`-th term is row `k`. -/
theorem lift_eq (j : Fin 1024) (k : Fin 2048) :
    reduces_S2048x1024_S1024.lift (ix1 j) k = ix2 k j := by
  funext a
  match a with
  | ⟨0, _⟩ => rfl
  | ⟨1, _⟩ => rfl

/-- A sum along the rows of a 2048 by 1024 block, started from the zero word, read at column `j`: the finite sum
    of the column's 2048 entries. -/
theorem colsum_apply (blk : FVec Ideal S2048x1024 .f32) (hφ : FKind.Formats .f32)
    (hacc : (0x00000000#32 : BitVec 32) = 0x00000000#32) (j : Fin 1024) :
    multiReduction .add [0] S1024 blk 0x00000000#32 reduces_S2048x1024_S1024 hφ hacc (ix1 j)
      = ∑ r : Fin 2048, blk (ix2 r j) :=
  (Ideal.multiReduction_add_single blk 0x00000000#32 reduces_S2048x1024_S1024 hφ hacc (ix1 j)).trans
    (Finset.sum_congr rfl fun k _ => congrArg blk (lift_eq j k))

/-- The value stored at the first step of a column block is zero at every index. -/
theorem reset_apply (y : S1x1024.Idx) : k0_pay1 (F := Ideal) y = 0 := by
  unfold k0_pay1
  rw [shapeCast_self]
  exact Ideal.ofBits_zero_f32

/-- The value stored at every step: each running total plus the sum of its column over the 2048 rows of the block. -/
theorem update_apply (acc : FVec Ideal S1x1024 .f32) (blk : FVec Ideal S2048x1024 .f32) (u : Fin 1) (j : Fin 1024) :
    k0_pay2 (F := Ideal) acc blk (ix2 u j) = acc (ix2 u j) + ∑ r : Fin 2048, blk (ix2 r j) := by
  unfold k0_pay2
  rw [shapeCast_self, addf_apply, shapeCast_a_1a_apply]
  exact congrArg (acc (ix2 u j) + ·) (colsum_apply blk _ _ j)

/-- The value stored at the last step: the running total plus the entry of the block of `init`. -/
theorem final_apply (acc : FVec Ideal S1x1024 .f32) (ini : FVec Ideal S1024 .f32) (j : Fin 1024) :
    k0_pay3 (F := Ideal) acc ini (ix1 j) = acc (ix2 (0 : Fin 1) j) + ini (ix1 j) := by
  unfold k0_pay3
  rw [addf_apply, shapeCast_1a_a_apply]

end Cert.KernelIdeal.Payloads

end
-- ==== Proof.Pieces.lean ====
/-
  What one step of the kernel body leaves behind, as values.

  The body's stores are found piece by piece; each buffer a step stores into ends holding the last store that covers
  it. Read back, a step that begins a column block leaves in the row of running totals the update applied to the zero
  row it has just stored; every other step leaves the update applied to what the step before left; and the last step
  of a column block leaves, in the block of the result, that step's running totals plus the block of `init`.
-/
import proofs.«164925_j66065186947681_1_alg».proof.Proof.Gen.KernelIdeal.Frame
import Idealize.ShloMosaic.Lib.Pipeline.Value
import Idealize.ShloMosaic.Lib.Tactic

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

theorem origin2 : (![0, 0] : Fin 2 → Nat) = fun _ => 0 := funext fun a => by fin_cases a <;> rfl
theorem origin1 : (![0] : Fin 1 → Nat) = fun _ => 0 := funext fun a => by fin_cases a <;> rfl

/-- A step that begins a column block leaves the update of the zero row by the step's block of the matrix. -/
theorem scratch_first (c : Dev nD) (i : grid0.Coords) (a2 : Memref sig .tc .vmem S1024 .f32) (h2 : a2.IsWhole)
    (a3 : Memref sig .tc .vmem S2048x1024 .f32) (h3 : a3.IsWhole) (a4 : Memref sig .tc .vmem S1024 .f32) (h4 : a4.IsWhole)
    (a5 : Memref sig .tc .vmem S1x1024 .f32) (h5 : a5.IsWhole) (hc0 : cond0_0 i) (hc1 : ¬cond0_1 i)
    (x0 : Vec F S1024 .f32) (x1 : Vec F S2048x1024 .f32) :
    sout0_A_0 c i a2 h2 a3 h3 a4 h4 a5 h5 hc0 hc1 x0 x1 = k0_pay2 (k0_pay1 (F := F)) x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1024) origin2, View.readCov_unit_zero (S := S1x1024) _ origin2]
  simp only [View.readAt_eq_ld, h3.read_unread, View.ld_unit_zero (S := S2048x1024) origin2]

/-- A step in the middle of a column block leaves the update of what the step before left. -/
theorem scratch_middle (c : Dev nD) (i : grid0.Coords) (a2 : Memref sig .tc .vmem S1024 .f32) (h2 : a2.IsWhole)
    (a3 : Memref sig .tc .vmem S2048x1024 .f32) (h3 : a3.IsWhole) (a4 : Memref sig .tc .vmem S1024 .f32) (h4 : a4.IsWhole)
    (a5 : Memref sig .tc .vmem S1x1024 .f32) (h5 : a5.IsWhole) (hc0 : ¬cond0_0 i) (hc1 : ¬cond0_1 i)
    (x0 : Vec F S1024 .f32) (x1 : Vec F S2048x1024 .f32) (prev : Vec F S1x1024 .f32) :
    sout0_B_0 c i a2 h2 a3 h3 a4 h4 a5 h5 hc0 hc1 x0 x1 prev = k0_pay2 prev x1 := by
  unfold sout0_B_0
  rw [View.read_writes_eq_canon _ _ _ (scover0_B_0 c i a2 h2 a3 h3 a4 h4 a5 h5 hc0 hc1 x0 x1 prev)]
  unfold kernelRun0_B
  dsimp only
  sl_unfold_words
  rw [View.canon_unit_zero origin2]
  simp only [View.readAt_eq_ld, h5.read_unread, h3.read_unread, View.ld_unit_zero (S := S1x1024) origin2,
    View.ld_unit_zero (S := S2048x1024) origin2]

/-- The last step of a column block leaves the same update in the row of running totals, -/
theorem scratch_last (c : Dev nD) (i : grid0.Coords) (a2 : Memref sig .tc .vmem S1024 .f32) (h2 : a2.IsWhole)
    (a3 : Memref sig .tc .vmem S2048x1024 .f32) (h3 : a3.IsWhole) (a4 : Memref sig .tc .vmem S1024 .f32) (h4 : a4.IsWhole)
    (a5 : Memref sig .tc .vmem S1x1024 .f32) (h5 : a5.IsWhole) (hc0 : ¬cond0_0 i) (hc1 : cond0_1 i)
    (x0 : Vec F S1024 .f32) (x1 : Vec F S2048x1024 .f32) (prev : Vec F S1x1024 .f32) :
    sout0_C_0 c i a2 h2 a3 h3 a4 h4 a5 h5 hc0 hc1 x0 x1 prev = k0_pay2 prev x1 := by
  unfold sout0_C_0
  rw [View.read_writes_eq_canon _ _ _ (scover0_C_0 c i a2 h2 a3 h3 a4 h4 a5 h5 hc0 hc1 x0 x1 prev)]
  unfold kernelRun0_C
  dsimp only
  sl_unfold_words
  rw [View.canon_unit_zero origin2]
  simp only [View.readAt_eq_ld, h5.read_unread, h3.read_unread, View.ld_unit_zero (S := S1x1024) origin2,
    View.ld_unit_zero (S := S2048x1024) origin2]

/-- and in the block of the result those running totals plus the block of `init`. -/
theorem out_last (c : Dev nD) (i : grid0.Coords) (a2 : Memref sig .tc .vmem S1024 .f32) (h2 : a2.IsWhole)
    (a3 : Memref sig .tc .vmem S2048x1024 .f32) (h3 : a3.IsWhole) (a4 : Memref sig .tc .vmem S1024 .f32) (h4 : a4.IsWhole)
    (a5 : Memref sig .tc .vmem S1x1024 .f32) (h5 : a5.IsWhole) (hc0 : ¬cond0_0 i) (hc1 : cond0_1 i)
    (x0 : Vec F S1024 .f32) (x1 : Vec F S2048x1024 .f32) (prev : Vec F S1x1024 .f32) :
    out0_C_2 c i a2 h2 a3 h3 a4 h4 a5 h5 hc0 hc1 x0 x1 prev = k0_pay3 (k0_pay2 prev x1) x0 := by
  unfold out0_C_2
  rw [View.read_writes_eq_canon _ _ _ (cover0_C_2 c i a2 h2 a3 h3 a4 h4 a5 h5 hc0 hc1 x0 x1 prev)]
  unfold kernelRun0_C
  dsimp only
  sl_unfold_words
  rw [View.canon_unit_zero origin1]
  simp only [View.readAt_eq_ld, h5.read_unread, h3.read_unread, h2.read_unread, View.readCov_unit_zero (S := S1x1024) _ origin2,
    View.ld_unit_zero (S := S1x1024) origin2, View.ld_unit_zero (S := S2048x1024) origin2, View.ld_unit_zero (S := S1024) origin1]

end Cert.KernelIdeal.Pieces

end
-- ==== Proof.Blocks.lean ====
/-
  Where the blocks sit, and an entry of a block read as an entry of its array.

  The 128 grid points are numbered with the column block first: point `t` works on column block `t / 64` (columns
  `1024 * (t / 64) …`) and on row block `t % 64` (rows `2048 * (t % 64) …`). Entry `(r, j)` of the block of the
  matrix at `t` is entry `(2048 * (t % 64) + r, 1024 * (t / 64) + j)` of the matrix, entry `j` of the block of
  `init` is entry `1024 * (t / 64) + j` of `init`, and the block of the result at `t` covers the same 1024 indices.
-/
import proofs.«164925_j66065186947681_1_alg».proof.Proof.Gen.KernelIdeal.Frame
import Idealize.ShloMosaic.Lib.ValueIdx

noncomputable section

open Idealize.ShloMosaic Idealize.ShloMosaic.TcCoe Idealize.ShloMosaic.ValueIdx Idealize.SL.Sem

namespace Cert.KernelIdeal.Blocks

open Cert.KernelIdeal Cert.KernelIdeal.Gen

variable {F : FTy → Type} [FloatOps F]
variable (m : (ℓ : Loc nD τ sig) → Buf (Elt F) ℓ)

/-- The block of the matrix at point `t` is row block `t % 64` of column block `t / 64`. -/
theorem index_xs : ∀ t : Fin cfg0.N, win0_1.index t (0 : Fin 2) = t.val % 64 ∧ win0_1.index t (1 : Fin 2) = t.val / 64 :=
  (by decide +kernel : ∀ t : Fin grid0.N, win0_1.index t (0 : Fin 2) = t.val % 64 ∧ win0_1.index t (1 : Fin 2) = t.val / 64)

/-- The block of `init` at point `t` is block `t / 64`. -/
theorem index_init : ∀ t : Fin cfg0.N, win0_0.index t (0 : Fin 1) = t.val / 64 :=
  (by decide +kernel : ∀ t : Fin grid0.N, win0_0.index t (0 : Fin 1) = t.val / 64)

/-- The block of the result at point `t` is block `t / 64`. -/
theorem index_out : ∀ t : Fin cfg0.N, win0_2.index t (0 : Fin 1) = t.val / 64 :=
  (by decide +kernel : ∀ t : Fin grid0.N, win0_2.index t (0 : Fin 1) = t.val / 64)

/-- The two argument arrays as the kernel finds them, and their blocks at a point, at their literal shapes. -/
abbrev initArr (c : Dev nD) : FVec F S2048 .f32 := V m c main_arg0
abbrev xsArr (c : Dev nD) : FVec F S131072x2048 .f32 := V m c main_arg1
abbrev initBlk (c : Dev nD) (t : Fin cfg0.N) : FVec F S1024 .f32 := iblk m c 0 t
abbrev xsBlk (c : Dev nD) (t : Fin cfg0.N) : FVec F S2048x1024 .f32 := iblk m c 1 t

/-- Entry `(r, j)` of the block of the matrix at `t` is entry `(2048 * (t % 64) + r, 1024 * (t / 64) + j)` of the matrix. -/
theorem xsBlk_apply (c : Dev nD) (t : Fin cfg0.N) (r : Fin 2048) (j : Fin 1024) (R : Fin 131072) (C : Fin 2048)
    (hR : R.val = t.val % 64 * 2048 + r.val) (hC : C.val = t.val / 64 * 1024 + j.val) :
    xsBlk m c t (ix2 r j) = xsArr m c (ix2 R C) := by
  show iblk m c 1 t (ix2 r j) = V m c main_arg1 (ix2 R C)
  unfold iblk
  rw [View.read_apply]
  show V m c main_arg1 _ = V m c main_arg1 _
  congr 1
  funext a
  apply Fin.ext
  match a with
  | ⟨0, _⟩ => show win0_1.index t (0 : Fin 2) * 2048 + 1 * r.val = R.val; rw [(index_xs t).1, hR]; omega
  | ⟨1, _⟩ => show win0_1.index t (1 : Fin 2) * 1024 + 1 * j.val = C.val; rw [(index_xs t).2, hC]; omega

/-- Entry `j` of the block of `init` at `t` is entry `1024 * (t / 64) + j` of `init`. -/
theorem initBlk_apply (c : Dev nD) (t : Fin cfg0.N) (j : Fin 1024) (C : Fin 2048)
    (hC : C.val = t.val / 64 * 1024 + j.val) :
    initBlk m c t (ix1 j) = initArr m c (ix1 C) := by
  show iblk m c 0 t (ix1 j) = V m c main_arg0 (ix1 C)
  unfold iblk
  rw [View.read_apply]
  show V m c main_arg0 _ = V m c main_arg0 _
  congr 1
  funext a
  apply Fin.ext
  match a with
  | ⟨0, _⟩ => show win0_0.index t (0 : Fin 1) * 1024 + 1 * j.val = C.val; rw [index_init t, hC]; omega

end Cert.KernelIdeal.Blocks

end
-- ==== Proof.KernelTotal.lean ====
/-
  The kernel computes the column totals.

  Fix a column block `d` and follow its 64 steps, the points `64 * d … 64 * d + 63`. The first step stores zero into
  the row of running totals and adds the first row block's part of each column; each later step adds its own row
  block's part to what the step before left. So after step `s` the running total of column `j` is the sum of the
  block totals of row blocks `0 … s` for that column: the steps form a fold that starts from zero and adds one
  addend per point, and a fold of additions is the finite sum of its addends. After step 63 it is the sum over all 64
  row blocks, the column's total, and that step stores it, plus the entry of `init`, into the block of the result,
  which is then written back. The 1024 indices of block `d` of the result are written by point `64 * d + 63` and by
  no other, and the two blocks cover the result; hence every entry of the result is the column total plus `init`.
-/
import proofs.«164925_j66065186947681_1_alg».proof.Proof.Gen.KernelIdeal.Value
import proofs.«164925_j66065186947681_1_alg».proof.Proof.ColumnTotal
import proofs.«164925_j66065186947681_1_alg».proof.Proof.Payloads
import proofs.«164925_j66065186947681_1_alg».proof.Proof.Pieces
import proofs.«164925_j66065186947681_1_alg».proof.Proof.Blocks

noncomputable section

open scoped BigOperators
open Idealize.ShloMosaic Idealize.ShloMosaic.TcCoe Idealize.ShloMosaic.ValueIdx Idealize.SL.Sem
open Idealize.ShloMosaic.Pipeline (Dat)

namespace Cert.KernelIdeal.Total

open Cert.KernelIdeal Cert.KernelIdeal.Gen Cert.KernelIdeal.Value Cert.KernelIdeal.Blocks Cert.KernelIdeal.Pieces
  Cert.KernelIdeal.Payloads Cert.ColumnTotal

variable (m : (ℓ : Loc nD τ sig) → Buf (Elt Ideal) ℓ) (ρ : Dev nD → PrngReg)

theorem points : ∀ t : Fin cfg0.N, t.val < 128 := fun t => lt_of_lt_of_eq t.isLt (show cfg0.N = 128 from N_0)

/-- Column `j` of column block `d`, as a column of the matrix (there are two column blocks). -/
def colOf (d : ℕ) (j : Fin 1024) : Fin 2048 :=
  ⟨d % 2 * 1024 + j.val, by have := j.isLt; have := Nat.mod_lt d (by decide : 0 < 2); omega⟩

theorem colOf_val (d : ℕ) (hd : d < 2) (j : Fin 1024) : (colOf d j).val = d * 1024 + j.val := by
  show d % 2 * 1024 + j.val = _
  rw [Nat.mod_eq_of_lt hd]

/-- What the block of the matrix at point `t` adds to the running total of column `j`: the block total of row block
    `t % 64` for that column of column block `t / 64`. -/
theorem blockSum_eq (c : Dev nD) (t : Fin cfg0.N) (j : Fin 1024) :
    ∑ r : Fin 2048, xsBlk m c t (ix2 r j) = blockTotal (xsArr m c) (t.val % 64) (colOf (t.val / 64) j) := by
  have hN := points t
  unfold blockTotal
  refine Finset.sum_congr rfl fun r _ => ?_
  have hr := r.isLt
  have hlt : t.val % 64 * 2048 + r.val < 131072 := by omega
  rw [rowAt_of_lt _ _ hlt]
  exact xsBlk_apply m c t r j ⟨_, hlt⟩ (colOf (t.val / 64) j) rfl (colOf_val _ (by omega) j)

/-- The addend of point `n` at an index of the row of running totals. -/
def addend (c : Dev nD) (n : ℕ) (y : S1x1024.Idx) : EReal :=
  blockTotal (xsArr m c) (n % 64) (colOf (n / 64) (y 1))

/-- The first step of a column block leaves zero plus its addend, whatever the row held before. -/
theorem step_first (c : Dev nD) (n : ℕ) (hn : n < cfg0.N) (h0 : n % 64 = 0) (acc : Vec Ideal S1x1024 .f32)
    (y : S1x1024.Idx) : scAt0_0 m c n hn acc y = 0 + addend m c n y := by
  have hN := points ⟨n, hn⟩
  have h1 : ¬n % 64 = 63 := by omega
  unfold scAt0_0
  rw [dif_pos h0, dif_neg h1, scratch_first]
  obtain ⟨u, j, rfl⟩ : ∃ (u : Fin 1) (j : Fin 1024), y = ix2 u j := ⟨y 0, y 1, eq_ix2 y⟩
  exact (update_apply _ _ u j).trans (congrArg₂ (· + ·) (reset_apply _) (blockSum_eq m c ⟨n, hn⟩ j))

/-- Every later step adds its addend to what the step before left. -/
theorem step_later (c : Dev nD) (n : ℕ) (hn : n < cfg0.N) (h0 : ¬n % 64 = 0) (acc : Vec Ideal S1x1024 .f32)
    (y : S1x1024.Idx) : scAt0_0 m c n hn acc y = acc y + addend m c n y := by
  obtain ⟨u, j, rfl⟩ : ∃ (u : Fin 1) (j : Fin 1024), y = ix2 u j := ⟨y 0, y 1, eq_ix2 y⟩
  unfold scAt0_0
  rw [dif_neg h0]
  by_cases h1 : n % 64 = 63
  · rw [dif_pos h1, scratch_last]
    exact (update_apply _ _ u j).trans (congrArg (acc (ix2 u j) + ·) (blockSum_eq m c ⟨n, hn⟩ j))
  · rw [dif_neg h1, scratch_middle]
    exact (update_apply _ _ u j).trans (congrArg (acc (ix2 u j) + ·) (blockSum_eq m c ⟨n, hn⟩ j))

/-- THE RUNNING TOTALS after point `t`: for column `j` of column block `t / 64`, the sum of the block totals of row
    blocks `0 … t % 64`. -/
theorem scratch_after (c : Dev nD) (t : Fin cfg0.N) (u : Fin 1) (j : Fin 1024) :
    (outsAt0 m c t.val t.isLt).2 (ix2 u j)
      = ∑ s ∈ Finset.range (t.val % 64 + 1), blockTotal (xsArr m c) s (colOf (t.val / 64) j) := by
  have hN := points t
  rw [soutsAt0_0_eq m c t]
  refine (Pipeline.accAt_add_apply (ι := S1x1024.Idx) (β := EReal)
    (fun n h => scAt0_0 m c n h (VS0_0.read (Elt Ideal) VS0_0.junk)) (scAt0_0 m c) (fun _ => 0) (addend m c)
    (64 * (t.val / 64)) 63
    (fun h y => step_first m c _ h (by omega) _ y)
    (fun n h acc y hb he => step_later m c n h (by omega) acc y)
    (t.val % 64) (by omega) _ (ix2 u j)).trans ?_
  refine (zero_add _).trans (Finset.sum_congr rfl fun s hs => ?_)
  have hs' : s < 64 := by have := Finset.mem_range.mp hs; omega
  show blockTotal (xsArr m c) ((64 * (t.val / 64) + s) % 64) (colOf ((64 * (t.val / 64) + s) / 64) j) = _
  rw [show (64 * (t.val / 64) + s) % 64 = s from by omega, show (64 * (t.val / 64) + s) / 64 = t.val / 64 from by omega]

/-- At the last step of a column block the block of the result holds that step's running totals plus the block of
    `init`. -/
theorem out_at_last (c : Dev nD) (t : Fin cfg0.N) (h0 : ¬t.val % 64 = 0) (h1 : t.val % 64 = 63) :
    (outsAt0 m c t.val t.isLt).1 = k0_pay3 ((outsAt0 m c t.val t.isLt).2) (initBlk m c t) := by
  rw [outsAt0_C m c t h0 h1]
  dsimp only
  rw [out_last, scratch_last]

/-- WHAT A WRITE-BACK WRITES is the block of the column totals plus `init`: only the last step of a column block
    writes back, and then every running total is its column's whole total. -/
theorem flushed_eq (c : Dev nD) (t : Fin cfg0.N) (hf : (cfg0.win 2).flush t = true) :
    (dats m 0 c).flushed 2 t = ((cfg0.win 2).blk t).view.read (Elt Ideal) (total (initArr m c) (xsArr m c)) := by
  have hN := points t
  have h1 : t.val % 64 = 63 := (flush0_2 t).mp hf
  have h0 : ¬t.val % 64 = 0 := by omega
  have h64 : t.val % 64 + 1 = 64 := by omega
  rw [flushed2, out_at_last m c t h0 h1]
  funext y
  have hy : (y 0).val < 1024 := (y 0).isLt
  obtain ⟨j, hj⟩ : ∃ j : Fin 1024, j.val = (y 0).val := ⟨⟨(y 0).val, hy⟩, rfl⟩
  have hx : (cfg0.win 2).xinj (grid0.coords t) y = ix1 j := by
    funext a
    match a with
    | ⟨0, _⟩ => exact Fin.ext hj.symm
  have hC : (colOf (t.val / 64) j).val = t.val / 64 * 1024 + j.val := colOf_val _ (by omega) j
  have he : ((cfg0.win 2).blk t).view.emb y = ix1 (colOf (t.val / 64) j) := by
    funext a
    apply Fin.ext
    match a with
    | ⟨0, _⟩ =>
      show win0_2.index t (0 : Fin 1) * 1024 + 1 * (y 0).val = (colOf (t.val / 64) j).val
      rw [index_out t, hC, hj]; omega
  show k0_pay3 ((outsAt0 m c t.val t.isLt).2) (initBlk m c t) ((cfg0.win 2).xinj (grid0.coords t) y)
    = total (initArr m c) (xsArr m c) (((cfg0.win 2).blk t).view.emb y)
  rw [hx, he]
  refine (final_apply _ _ j).trans ?_
  rw [scratch_after m c t 0 j, initBlk_apply m c t j _ hC, h64]
  rfl

/-- An index of the result is in the block of point `t` iff it lies in block `t / 64`'s range of 1024 indices. -/
theorem mem_blk (t : Fin cfg0.N) (i : S2048.Idx) :
    i ∈ ((cfg0.win 2).blk t).view.set ↔ ∀ a : Fin 1, win0_2.index t a * S1024.size a ≤ (i a).val
      ∧ (i a).val < win0_2.index t a * S1024.size a + S1024.size a := by
  show i ∈ ((View.whole main_v0).slice (win0_2.rect t)).set ↔ _
  rw [View.set_slice_whole, Rect.mem_set_unit]
  exact Iff.rfl

/-- Every index of the result is written back by the last step of its column block. -/
theorem cover (i : S2048.Idx) :
    ∃ t : Fin cfg0.N, (cfg0.win 2).flush t = true ∧ i ∈ ((cfg0.win 2).blk t).view.set := by
  have hi : (i 0).val < 2048 := (i 0).isLt
  have hN : cfg0.N = 128 := N_0
  refine ⟨⟨64 * ((i 0).val / 1024) + 63, by rw [hN]; omega⟩, (flush0_2 _).mpr (by
    show (64 * ((i 0).val / 1024) + 63) % 64 = 63; omega), ?_⟩
  rw [mem_blk]
  intro a
  match a with
  | ⟨0, _⟩ =>
    show win0_2.index _ (0 : Fin 1) * 1024 ≤ (i 0).val ∧ (i 0).val < win0_2.index _ (0 : Fin 1) * 1024 + 1024
    rw [index_out]
    show (64 * ((i 0).val / 1024) + 63) / 64 * 1024 ≤ (i 0).val
      ∧ (i 0).val < (64 * ((i 0).val / 1024) + 63) / 64 * 1024 + 1024
    omega

/-- THE RESULT ARRAY after the run: the column totals plus `init`. -/
theorem final (c : Dev nD) : (dats m 0 c).arrAt 2 cfg0.N = total (initArr m c) (xsArr m c) :=
  (dats m 0 c).arrAt_eq_of_cover 2 (total (initArr m c) (xsArr m c)) (fun t hf => flushed_eq m c t hf) cover

/-- The kernel's run, read: it terminates with the result at the column totals plus `init` and the arguments
    unchanged. -/
theorem run : θ_run defs (onTc (τ := τ) (main (F := Ideal))) ⟨m, fun _ => 0, ρ⟩ fun r => ∀ c : Dev nD,
      r.2.mem ((c : Thread nD τ).loc main_v0)
        = total (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Total

end
-- ==== Proof.ReferenceTotal.lean ====
/-
  The reference computes the column totals.

  Its result at `i` is `init i` plus the outcome of one sum over the rows that starts from zero: `0` plus the
  sum of the 131072 entries of column `i`. Zero is the unit of addition, the one long sum is the sum of the 64
  block totals, and addition commutes, so this is the column total followed by `init i`.
-/
import proofs.«164925_j66065186947681_1_alg».proof.Proof.Gen.ReferenceIdeal.Read
import proofs.«164925_j66065186947681_1_alg».proof.Proof.ColumnTotal

noncomputable section

open scoped BigOperators
open Idealize.ShloMosaic Idealize.ShloMosaic.ValueIdx

namespace Cert.ReferenceIdeal.Total

open Cert.ReferenceIdeal Cert.ReferenceIdeal.Gen Cert.ReferenceIdeal.Read

/-- The entry the sum over the rows reads for result index `i` at its `k`-th term is row `k` of column `i`. -/
theorem idx_eq (i : S2048.Idx) (k : Fin 131072) : idx_main_v0 i k = ix2 k (i 0) := by
  funext a
  match a with
  | ⟨0, _⟩ => rfl
  | ⟨1, _⟩ => rfl

/-- The reference's result is the column total plus `init`, at every index. -/
theorem reference_total (init : FVec Ideal S2048 .f32) (xs : FVec Ideal S131072x2048 .f32) :
    val_main_v1 (F := Ideal) init xs = Cert.ColumnTotal.total init xs := by
  funext i
  rw [val_main_v1_apply, val_main_v0_apply, val_main_cst_apply]
  show init i + (Ideal.ofBits .f32 0x00000000#32 + ∑ k : Fin 131072, xs (idx_main_v0 i k))
    = (∑ s ∈ Finset.range 64, Cert.ColumnTotal.blockTotal xs s (i 0)) + init i
  rw [Ideal.ofBits_zero_f32, zero_add, add_comm]
  exact congrArg (· + init i)
    ((Finset.sum_congr rfl fun k _ => congrArg xs (idx_eq i k)).trans (Cert.ColumnTotal.column_total xs (i 0)))

end Cert.ReferenceIdeal.Total

end
-- ==== Proof.lean ====
/-
  A kernel that adds up the columns of a matrix block by block computes what one sum over the rows computes.

  The inputs are a vector `init` of 2048 numbers and a matrix `xs` of 131072 rows and 2048 columns; the result is,
  at each index `i`, `init i` plus the total of column `i`. The reference forms that total as one sum over all
  131072 rows, started from zero, and adds it to `init i`. The kernel walks a grid of two column blocks by 64 row
  blocks: within a column block it keeps a row of 1024 running totals, set to zero at the first row block, to which
  each step adds the sums of its 2048 rows; at the last row block it adds the block of `init` and writes the block of
  the result back. Over the extended reals addition is commutative and associative with unit zero, so 64 partial sums
  added one after another from zero are the single long sum, and the order of the final addition with `init` does
  not matter. No finiteness of the inputs is used.

  The three programs terminate without a fault and leave their arguments as they found them: for the two kernel
  programs that is the pipeline's run, for the reference it is its three host operations run in order. The kernel's
  idealization rewrote nothing, so that it is a sanctioned one holds trivially.
-/
import proofs.«164925_j66065186947681_1_alg».proof.Defs
import proofs.«164925_j66065186947681_1_alg».proof.Proof.Gen.Kernel.Frame
import proofs.«164925_j66065186947681_1_alg».proof.Proof.Gen.KernelIdeal.Frame
import proofs.«164925_j66065186947681_1_alg».proof.Proof.Gen.ReferenceIdeal
import proofs.«164925_j66065186947681_1_alg».proof.Proof.Gen.Pre_finite_inputs
import proofs.«164925_j66065186947681_1_alg».proof.Proof.KernelTotal
import proofs.«164925_j66065186947681_1_alg».proof.Proof.ReferenceTotal
import Idealize.ShloMosaic.Adequacy
import Idealize.ShloMosaic.Init

noncomputable section

namespace Cert.Proof

open Idealize.ShloMosaic Idealize.SL.Sem

/-- The kernel as printed runs to the end and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's three host operations run in order and keep the arguments. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From arguments that agree, the kernel ends with the column totals plus `init` in its result, and so does the
    reference: the same function of the same arrays. -/
theorem algebraic : Cert.algebraic_KernelIdeal_ReferenceIdeal := by
  intro m ρ m' ρ' _ hagree
  refine ⟨fun c => Cert.ColumnTotal.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Total.reference_total, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
